-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024x3072 : Shape := ⟨2, ![1024, 3072]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S2x2048x16x64 : Shape := ⟨4, ![2, 2048, 16, 64]⟩

abbrev nBuf : Space → Nat
  | .hbm => 24
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S3072x1024, .bf16⟩
  | .hbm, ⟨4, _⟩ => ⟨S1024x3072, .bf16⟩
  | .hbm, ⟨5, _⟩ => ⟨S1024x1024, .bf16⟩
  | .hbm, ⟨6, _⟩ => ⟨S1024x1024, .bf16⟩
  | .hbm, ⟨7, _⟩ => ⟨S2x2048x1024, .bf16⟩
  | .hbm, ⟨8, _⟩ => ⟨S4096x1024, .bf16⟩
  | .hbm, ⟨9, _⟩ => ⟨S4096x3072, .bf16⟩
  | .hbm, ⟨10, _⟩ => ⟨S2x2048x16x192, .bf16⟩
  | .hbm, ⟨11, _⟩ => ⟨S2x16x2048x192, .bf16⟩
  | .hbm, ⟨12, _⟩ => ⟨S2x16x2048x64, .bf16⟩
  | .hbm, ⟨13, _⟩ => ⟨S2x16x2048x64, .bf16⟩
  | .hbm, ⟨14, _⟩ => ⟨S2x16x2048x64, .bf16⟩
  | .hbm, ⟨15, _⟩ => ⟨S32x2048x64, .bf16⟩
  | .hbm, ⟨16, _⟩ => ⟨S32x2048x64, .bf16⟩
  | .hbm, ⟨17, _⟩ => ⟨S32x2048x64, .bf16⟩
  | .hbm, ⟨18, _⟩ => ⟨S32x2048x64, .bf16⟩
  | .hbm, ⟨19, _⟩ => ⟨S2x16x2048x64, .bf16⟩
  | .hbm, ⟨20, _⟩ => ⟨S2x2048x16x64, .bf16⟩
  | .hbm, ⟨21, _⟩ => ⟨S4096x1024, .bf16⟩
  | .hbm, ⟨22, _⟩ => ⟨S4096x1024, .f32⟩
  | .hbm, ⟨23, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  transposes_S3072x1024_S1024x3072_1_0 : S3072x1024.Transposes [1, 0] S1024x3072
  transposes_S1024x1024_S1024x1024_1_0 : S1024x1024.Transposes [1, 0] S1024x1024
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x16x192 : S4096x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  shapeCasts_S2x16x2048x64_S32x2048x64 : S2x16x2048x64.ShapeCasts S32x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .bf16 = 32 ∨ (Rect.block (s := S4096x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S32x2048x64.size a
  hwx1_0 : ∀ i : grid1.Coords, EltTy.bits .bf16 = 32 ∨ (Rect.block (s := S32x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S32x2048x64.size a
  hwx1_3 : ∀ i : grid1.Coords, EltTy.bits .bf16 = 32 ∨ (Rect.block (s := S32x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x16x192, .f32⟩
  | .hbm, ⟨5, _⟩ => ⟨S2x16x2048x192, .f32⟩
  | .hbm, ⟨6, _⟩ => ⟨S2x16x2048x64, .f32⟩
  | .hbm, ⟨7, _⟩ => ⟨S2x16x2048x64, .f32⟩
  | .hbm, ⟨8, _⟩ => ⟨S2x16x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | .hbm, ⟨31, _⟩ => ⟨S2x2048x16x64, .f32⟩
  | .hbm, ⟨32, _⟩ => ⟨S2x2048x1024, .f32⟩
  | .hbm, ⟨33, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Spec.lean ====
/-
  The mathematics of the kernel's program, as whole-array functions on the extended reals.

  The program is multi-head self-attention in three tiled stages.  Stage one multiplies the 4096 × 1024 array of
  tokens by the transposed projection weights (1024 × 3072): entry (r, e) is the sum over d of token r's d-th
  feature times weight (d, e).  Stage two, for each of the 32 (batch, head) pairs, takes 2048 query, key and value rows
  of 64 features: the logit of query row s against key row k is their inner product times one eighth; a row of logits
  is shifted by its maximum (the maximum taken from minus infinity, twice, as both programs spell it), exponentiated,
  divided by the row's sum, and the resulting weights average the value rows.  Stage three multiplies the re-laid
  4096 × 1024 attention output by the transposed output weights.  Between the stages the arrays are only re-laid:
  reshapes, an exchange of the sequence and head axes, and three slices of the 192 projected features of a head.
-/
import proofs.«101789_j43447889166453_1_alg».proof.Proof.Gen.KernelIdeal
import Idealize.ShloMosaic.Lib.ValueIdx
import Idealize.ShloMosaic.PureOps.Ideal.Laws

noncomputable section

namespace Cert.Spec

open Idealize.ShloMosaic Idealize.ShloMosaic.ValueIdx Cert.KernelIdeal Cert.KernelIdeal.Facts₀

/-- Minus infinity, as the f32 word both programs start a row's maximum from. -/
abbrev negInf : EReal := Ideal.ofBits .f32 0xFF800000#32
/-- The kernel's logit scale, the f32 word of one eighth. -/
abbrev eighth : EReal := Ideal.ofBits .f32 0x3E000000#32

/-! ## Rows times columns -/

/-- Entry (r, e) of tokens × projection weights: the sum over the 1024 features. -/
def projAt (A : S4096x1024.Idx → EReal) (B : S1024x3072.Idx → EReal) (r : Fin 4096) (e : Fin 3072) : EReal :=
  ∑ k : Fin 1024, A (ix2 r k) * B (ix2 k e)

/-- Stage one as a whole array. -/
def proj (A : S4096x1024.Idx → EReal) (B : S1024x3072.Idx → EReal) : S4096x3072.Idx → EReal :=
  fun i => projAt A B ⟨(i 0).val, idx2_lt0 i⟩ ⟨(i 1).val, idx2_lt1 i⟩

/-- Entry (r, e) of attention output × output weights: the sum over the 1024 features. -/
def outAt (A : S4096x1024.Idx → EReal) (B : S1024x1024.Idx → EReal) (r : Fin 4096) (e : Fin 1024) : EReal :=
  ∑ k : Fin 1024, A (ix2 r k) * B (ix2 k e)

/-- Stage three as a whole array. -/
def outp (A : S4096x1024.Idx → EReal) (B : S1024x1024.Idx → EReal) : S4096x1024.Idx → EReal :=
  fun i => outAt A B ⟨(i 0).val, idx2_lt0 i⟩ ⟨(i 1).val, idx2_lt1 i⟩

/-! ## One row of attention -/

/-- The scaled inner product of a query row and a key row. -/
def logit (q kk : Fin 64 → EReal) (c : EReal) : EReal := (∑ d : Fin 64, q d * kk d) * c

/-- A row's maximum, started from minus infinity and then compared with minus infinity once more. -/
def rowMax (L : Fin 2048 → EReal) : EReal := max negInf ((Finset.univ : Finset (Fin 2048)).fold max negInf L)

/-- The softmax of a row of logits, entry k: the shifted exponential over the row's sum of them. -/
def softmaxAt (L : Fin 2048 → EReal) (k : Fin 2048) : EReal :=
  Ideal.div (Ideal.exp (L k - rowMax L)) (∑ k' : Fin 2048, Ideal.exp (L k' - rowMax L))

/-- The softmax weights of a row of logits averaging a column of values. -/
def softAttend (L v : Fin 2048 → EReal) : EReal := ∑ k : Fin 2048, softmaxAt L k * v k

/-- Stage two at (pair b, query row s, feature j). -/
def attnAt (Q K V : S32x2048x64.Idx → EReal) (b : Fin 32) (s : Fin 2048) (j : Fin 64) : EReal :=
  softAttend (fun k => logit (fun d => Q (ix3 b s d)) (fun d => K (ix3 b k d)) eighth) (fun k => V (ix3 b k j))

/-- Stage two as a whole array. -/
def attn (Q K V : S32x2048x64.Idx → EReal) : S32x2048x64.Idx → EReal :=
  fun i => attnAt Q K V ⟨(i 0).val, (i 0).isLt⟩ ⟨(i 1).val, (i 1).isLt⟩ ⟨(i 2).val, (i 2).isLt⟩

/-! ## The program's value: the stages between the re-layings -/

section Composed
variable (x : (⟨S2x2048x1024, .f32⟩ : BufTy).Contents (Elt Ideal)) (w : (⟨S3072x1024, .f32⟩ : BufTy).Contents (Elt Ideal))
  (o : (⟨S1024x1024, .f32⟩ : BufTy).Contents (Elt Ideal))

/-- The tokens as 4096 rows. -/
def tokens : (⟨S4096x1024, .bf16⟩ : BufTy).Contents (Elt Ideal) :=
  shapeCast _ (((truncf (F := Ideal) .bf16 · bitsLt_bf16_f32) : (⟨S2x2048x1024, .f32⟩ : BufTy).Contents (Elt Ideal) → (⟨S2x2048x1024, .bf16⟩ : BufTy).Contents (Elt Ideal)) x) shapeCasts_S2x2048x1024_S4096x1024
/-- The projection weights, transposed. -/
def wqkvT : (⟨S1024x3072, .bf16⟩ : BufTy).Contents (Elt Ideal) :=
  transpose S1024x3072 [1, 0] (((truncf (F := Ideal) .bf16 · bitsLt_bf16_f32) : (⟨S3072x1024, .f32⟩ : BufTy).Contents (Elt Ideal) → (⟨S3072x1024, .bf16⟩ : BufTy).Contents (Elt Ideal)) w) transposes_S3072x1024_S1024x3072_1_0
/-- The output weights, transposed. -/
def woT : (⟨S1024x1024, .bf16⟩ : BufTy).Contents (Elt Ideal) :=
  transpose S1024x1024 [1, 0] (((truncf (F := Ideal) .bf16 · bitsLt_bf16_f32) : (⟨S1024x1024, .f32⟩ : BufTy).Contents (Elt Ideal) → (⟨S1024x1024, .bf16⟩ : BufTy).Contents (Elt Ideal)) o) transposes_S1024x1024_S1024x1024_1_0
/-- The projected features, per (batch, head, position): 192 of them, queries then keys then values. -/
def heads : (⟨S2x16x2048x192, .bf16⟩ : BufTy).Contents (Elt Ideal) :=
  transpose S2x16x2048x192 [0, 2, 1, 3] (shapeCast _ (proj (tokens x) (wqkvT w) : (⟨S4096x3072, .bf16⟩ : BufTy).Contents (Elt Ideal)) shapeCasts_S4096x3072_S2x2048x16x192) transposes_S2x2048x16x192_S2x16x2048x192_0_2_1_3
/-- Queries, keys and values per (batch, head) pair. -/
def qs : (⟨S32x2048x64, .bf16⟩ : BufTy).Contents (Elt Ideal) :=
  shapeCast _ (extractStridedSlice S2x16x2048x64 ![0, 0, 0, 0] (heads x w) slices_S2x16x2048x192_S2x16x2048x64_0_0_0_0) shapeCasts_S2x16x2048x64_S32x2048x64
def ks : (⟨S32x2048x64, .bf16⟩ : BufTy).Contents (Elt Ideal) :=
  shapeCast _ (extractStridedSlice S2x16x2048x64 ![0, 0, 0, 64] (heads x w) slices_S2x16x2048x192_S2x16x2048x64_0_0_0_64) shapeCasts_S2x16x2048x64_S32x2048x64
def vs : (⟨S32x2048x64, .bf16⟩ : BufTy).Contents (Elt Ideal) :=
  shapeCast _ (extractStridedSlice S2x16x2048x64 ![0, 0, 0, 128] (heads x w) slices_S2x16x2048x192_S2x16x2048x64_0_0_0_128) shapeCasts_S2x16x2048x64_S32x2048x64
/-- The attention output, back as 4096 rows of 16 heads × 64 features. -/
def attended : (⟨S4096x1024, .bf16⟩ : BufTy).Contents (Elt Ideal) :=
  shapeCast _ (transpose S2x2048x16x64 [0, 2, 1, 3] (shapeCast _ (attn (qs x w) (ks x w) (vs x w) : (⟨S32x2048x64, .bf16⟩ : BufTy).Contents (Elt Ideal)) shapeCasts_S32x2048x64_S2x16x2048x64) transposes_S2x16x2048x64_S2x2048x16x64_0_2_1_3) shapeCasts_S2x2048x16x64_S4096x1024
/-- The program's result. -/
def result : (⟨S2x2048x1024, .f32⟩ : BufTy).Contents (Elt Ideal) :=
  shapeCast _ (outp (attended x w) (woT o) : (⟨S4096x1024, .f32⟩ : BufTy).Contents (Elt Ideal)) shapeCasts_S4096x1024_S2x2048x1024

end Composed

end Cert.Spec

end
-- ==== Proof.Reg0Value.lean ====
/-
  Stage one of the program as a whole array.  The region multiplies the 4096 × 1024 token rows by the 1024 × 3072
  transposed projection weights in eight tiles of 512 rows: grid point t reads rows 512·t … 512·t + 511 of the tokens
  and the whole weights, and writes rows 512·t … 512·t + 511 of the result.  Entry (p, q) of a tile is the sum over
  the 1024 features of the row tile's (p, k) entry times the weights' (k, q) entry; read where the tile sits in the
  array, that is entry (512·t + p, q) of the whole product.  The eight tiles cover the array, so the array ends
  holding the whole product.
-/
import proofs.«101789_j43447889166453_1_alg».proof.Proof.Spec
import proofs.«101789_j43447889166453_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The tile product at an index -/

/-- On the left operand's row axis the contraction's left index is the result's row. -/
theorem proj_lhs_row (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- On the left operand's feature axis it is the summation position. -/
theorem proj_lhs_feat (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- On the right operand's feature axis the contraction's right index is the summation position. -/
theorem proj_rhs_feat (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- On the right operand's column axis it is the result's column. -/
theorem proj_rhs_col (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- Entry (p, q) of what the body stores: the sum over the 1024 features of the row tile's (p, k) entry times the
    weights' (k, q) entry.  The narrowing to bf16 is the identity on the extended reals and the accumulator starts at zero. -/
theorem proj_tile_apply (x0 : FVec Ideal S512x1024 .bf16) (x1 : FVec Ideal S1024x3072 .bf16) (p : Fin 512) (q : Fin 3072) :
    k0_pay1 (F := Ideal) x0 x1 (ix2 p q) = ∑ k : Fin 1024, x0 (ix2 p k) * x1 (ix2 k q) := by
  unfold k0_pay1
  refine (Ideal.matmul_constant_zero_apply dot_S512x1024_S1024x3072_S512x3072_1_0_0_1_n_n none _ _ (ix2 p q)).trans ?_
  rw [shapeCast_self, shapeCast_self, ← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 p q) ((ValueIdx.contrEquiv1 dot_S512x1024_S1024x3072_S512x3072_1_0_0_1_n_n 1024 rfl rfl).symm k) = ix2 p k := funext fun a => Fin.ext (by
    match a with
    | ⟨0, _⟩ => exact proj_lhs_row _ _
    | ⟨1, _⟩ => exact (proj_lhs_feat _ _).trans hk)
  have er : dot_S512x1024_S1024x3072_S512x3072_1_0_0_1_n_n.rhsIdx (ix2 p q) ((ValueIdx.contrEquiv1 dot_S512x1024_S1024x3072_S512x3072_1_0_0_1_n_n 1024 rfl rfl).symm k) = ix2 k q := funext fun a => Fin.ext (by
    match a with
    | ⟨0, _⟩ => exact (proj_rhs_feat _ _).trans hk
    | ⟨1, _⟩ => exact proj_rhs_col _ _)
  rw [el, er]

/-! ## From the tiles to the array -/

/-- The zero offset of a whole-tile access. -/
theorem proj_origin_zero : (![0, 0] : Fin 2 → Nat) = fun _ => 0 := funext fun a => by fin_cases a <;> rfl

/-- The printed index maps over the grid: the token rows' tile moves with the output's tile down the rows and stays in
    column 0, the weights stay whole at tile (0, 0), and the output's tile index runs over 0 … 7 in column 0. -/
theorem proj_tile_indices : ∀ t : Fin cfg0.N, win0_0.index t (0 : Fin 2) = win0_2.index t (0 : Fin 2) + 0
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every one of the eight row tiles is some grid point's. -/
theorem proj_tile_onto : ∀ (q0 : Fin 8), ∃ t : Fin cfg0.N, win0_2.index t = ![q0.val + 0, 0] :=
  (by decide +kernel : ∀ (q0 : Fin 8), ∃ t : Fin grid0.N, win0_2.index t = ![q0.val + 0, 0])

/-- What grid point t writes back is tile t of the whole product of the token rows and the weights. -/
theorem proj_flushed (c : Dev nD) (t : Fin cfg0.N) :
    (dat0 V c).flushed 2 t = ((cfg0.win 2).blk t).view.read (Elt Ideal) (Cert.Spec.proj (V c main_v5) (V c main_v1)) := by
  show (cfg0.win 2).cut (grid0.coords t) ((dat0 V c).after 2 t) = _
  rw [after0_2]
  unfold out0_2
  rw [View.canon_unit_zero proj_origin_zero]
  simp only [View.ld_unit_zero (S := S512x1024) proj_origin_zero, View.ld_unit_zero (S := S1024x3072) proj_origin_zero]
  obtain ⟨e0, e1, e2, e3, e4, e5⟩ := proj_tile_indices t
  funext j
  obtain ⟨p, q, rfl⟩ : ∃ (p : Fin 512) (q : Fin 3072), j = ix2 p q := ⟨j 0, j 1, eq_ix2 j⟩
  show k0_pay1 (F := Ideal) (iblk0 V c 0 t) (iblk0 V c 1 t) (ix2 p q) = Cert.Spec.proj (V c main_v5) (V c main_v1) (((cfg0.win 2).blk t).view.emb (ix2 p q))
  refine (proj_tile_apply _ _ p q).trans ?_
  unfold Cert.Spec.proj Cert.Spec.projAt
  refine Finset.sum_congr rfl fun k _ => ?_
  have h0 : ((cfg0.win 0).blk t).view.emb (ix2 p k) = (ix2 ⟨((((cfg0.win 2).blk t).view.emb (ix2 p q)) 0).val, idx2_lt0 _⟩ k : S4096x1024.Idx) := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have h1 : ((cfg0.win 1).blk t).view.emb (ix2 k q) = (ix2 k ⟨((((cfg0.win 2).blk t).view.emb (ix2 p q)) 1).val, idx2_lt1 _⟩ : S1024x3072.Idx) := by
    funext a; apply Fin.ext
    match a with
    | ⟨0, _⟩ => show win0_1.index t (0 : Fin 2) * 1024 + 1 * k.val = k.val; omega
    | ⟨1, _⟩ => show win0_1.index t (1 : Fin 2) * 3072 + 1 * q.val = win0_2.index t (1 : Fin 2) * 3072 + 1 * q.val; omega
  refine congrArg₂ (· * ·) ?_ ?_
  · exact congrArg (V c main_v5 : S4096x1024.Idx → EReal) h0
  · exact congrArg (V c main_v1 : S1024x3072.Idx → EReal) h1

/-- An index of the array is in grid point t's tile exactly when each coordinate is in the tile's range on its axis. -/
theorem proj_mem_tile (t : Fin cfg0.N) (i : S4096x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v6).slice (win0_2.rect t)).set ↔ _
  rw [View.set_slice_whole, Rect.mem_set_unit]
  exact Iff.rfl

/-- The tiles cover the array: row r lies in row tile r / 512, and every tile spans all 3072 columns. -/
theorem proj_tiles_cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := proj_tile_onto ⟨(i 0).val / 512, by omega⟩
  have q0 : win0_2.index t (0 : Fin 2) = (i 0).val / 512 + 0 := congrFun ht 0
  have q1 : win0_2.index t (1 : Fin 2) = 0 := congrFun ht 1
  refine ⟨t, flush0_2 t, ?_⟩
  rw [proj_mem_tile]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- After the first tiled product the projected-features array is the whole product of the token rows with the
    transposed projection weights, as the region finds them. -/
theorem region0_value (c : Dev nD) :
    (dat0 V c).arrAt 2 cfg0.N = Cert.Spec.proj (V c main_v5) (V c main_v1) :=
  (dat0 V c).arrAt_eq_of_cover 2 _ (fun t _ => proj_flushed V c t) proj_tiles_cover

end Cert.KernelIdeal.RegionValue

end
-- ==== Proof.Reg1Pay.lean ====
/-
  The attention body at an index.

  The body takes a block of 1024 query rows, and the 2048 key rows and 2048 value rows of one (batch, head) pair, each row
  of 64 features.  Entry (s, j) of what it stores is the softmax-weighted average of the value rows' j-th features,
  the weights the softmax of query row s's logits: the inner products of query row s with the key rows, times one
  eighth, shifted by the row's maximum, exponentiated, and divided by the row's sum.
-/
import proofs.«101789_j43447889166453_1_alg».proof.Proof.Spec
import proofs.«101789_j43447889166453_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.AttnBody

open Idealize.ShloMosaic Idealize.ShloMosaic.ValueIdx Idealize.SL.Sem
open Cert.KernelIdeal Cert.KernelIdeal.Gen

/-! ## The operand indices of the two products -/

/-- Queries times keys, both contracted along their features: the left operand's row is the output's row … -/
theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
/-- … its feature the contracted one … -/
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
/-- … the right operand's row is the output's column … -/
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
/-- … and its feature the contracted one. -/
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Weights times values, rows times columns: the left operand's row is the output's row … -/
theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
/-- … its column the contracted key position … -/
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
/-- … the right operand's row the contracted key position … -/
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
/-- … and its column the output's column. -/
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-! ## The two products at an index -/

/-- Queries times keys from a zero accumulator, at (s, k): the inner product of query row s and key row k. -/
theorem qk_apply (y0 : FVec Ideal S1024x64 .bf16) (y1 : FVec Ideal S2048x64 .bf16) (s : Fin 1024) (k : Fin 2048) :
    matmul dot_S1024x64_S2048x64_S1024x2048_1_1_0_0_n_n none y0 y1 (constant (F := Ideal) S1024x2048 .f32 0x00000000#32) (ix2 s k)
      = ∑ d : Fin 64, y0 (ix2 s d) * y1 (ix2 k d) := by
  simp only [matmul]
  rw [Ideal.matmul_constant_zero_apply, ← Equiv.sum_comp (ValueIdx.contrEquiv1 dot_S1024x64_S2048x64_S1024x2048_1_1_0_0_n_n 64 rfl rfl).symm]
  refine Finset.sum_congr rfl fun d _ => ?_
  have hd := ValueIdx.contrEquiv1_symm_val dot_S1024x64_S2048x64_S1024x2048_1_1_0_0_n_n 64 rfl rfl d
  have el : dot_S1024x64_S2048x64_S1024x2048_1_1_0_0_n_n.lhsIdx (ix2 s k) ((ValueIdx.contrEquiv1 dot_S1024x64_S2048x64_S1024x2048_1_1_0_0_n_n 64 rfl rfl).symm d) = ix2 s d := funext fun a => Fin.ext (by
    match a with
    | ⟨0, _⟩ => exact lhs_qk_0 _ _
    | ⟨1, _⟩ => exact (lhs_qk_1 _ _).trans hd)
  have er : dot_S1024x64_S2048x64_S1024x2048_1_1_0_0_n_n.rhsIdx (ix2 s k) ((ValueIdx.contrEquiv1 dot_S1024x64_S2048x64_S1024x2048_1_1_0_0_n_n 64 rfl rfl).symm d) = ix2 k d := funext fun a => Fin.ext (by
    match a with
    | ⟨0, _⟩ => exact rhs_qk_0 _ _
    | ⟨1, _⟩ => exact (rhs_qk_1 _ _).trans hd)
  rw [el, er]

/-- Weights times values from a zero accumulator, at (s, j): the sum over the key positions of the weight at (s, k) times
    value row k's feature j. -/
theorem pv_apply (w : FVec Ideal S1024x2048 .bf16) (y2 : FVec Ideal S2048x64 .bf16) (s : Fin 1024) (j : Fin 64) :
    matmul dot_S1024x2048_S2048x64_S1024x64_1_0_0_1_n_n none w y2 (constant (F := Ideal) S1024x64 .f32 0x00000000#32) (ix2 s j)
      = ∑ k : Fin 2048, w (ix2 s k) * y2 (ix2 k j) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 s j) ((ValueIdx.contrEquiv1 dot_S1024x2048_S2048x64_S1024x64_1_0_0_1_n_n 2048 rfl rfl).symm k) = ix2 s k := funext fun a => Fin.ext (by
    match a with
    | ⟨0, _⟩ => exact lhs_pv_0 _ _
    | ⟨1, _⟩ => exact (lhs_pv_1 _ _).trans hk)
  have er : dot_S1024x2048_S2048x64_S1024x64_1_0_0_1_n_n.rhsIdx (ix2 s j) ((ValueIdx.contrEquiv1 dot_S1024x2048_S2048x64_S1024x64_1_0_0_1_n_n 2048 rfl rfl).symm k) = ix2 k j := funext fun a => Fin.ext (by
    match a with
    | ⟨0, _⟩ => exact (rhs_pv_0 _ _).trans hk
    | ⟨1, _⟩ => exact rhs_pv_1 _ _)
  rw [el, er]

/-! ## A row's maximum and a row's sum -/

/-- The source index over row s with k on the reduced axis is (s, k). -/
theorem lift_row (h : S1024x2048.Reduces [1] S1024) (s : Fin 1024) (k : Fin 2048) : h.lift (ix1 s) k = ix2 s k :=
  funext fun a => Fin.ext (by match a with | ⟨0, _⟩ => rfl | ⟨1, _⟩ => rfl)

/-- The maximum along a row from minus infinity, at row s: the fold of max over the row's 2048 entries. -/
theorem rowmax_apply (v : FVec Ideal S1024x2048 .f32) (h : S1024x2048.Reduces [1] S1024) (hφ : FKind.Formats .f32)
    (hacc : (0xFF800000#32 : BitVec (FTy.bits .f32)) = FKind.maximumf.neutral .f32 hφ) (s : Fin 1024) :
    multiReduction (F := Ideal) .maximumf [1] S1024 v 0xFF800000#32 h hφ hacc (ix1 s)
      = (Finset.univ : Finset (Fin 2048)).fold max Cert.Spec.negInf (fun k => v (ix2 s k)) := by
  refine (Ideal.multiReduction_maximumf_single v 0xFF800000#32 h hφ hacc (ix1 s)).trans ?_
  show (Finset.univ : Finset (Fin 2048)).fold max Cert.Spec.negInf (fun k => v (h.lift (ix1 s) k)) = _
  exact congrArg (fun f => (Finset.univ : Finset (Fin 2048)).fold max Cert.Spec.negInf f) (funext fun k => congrArg v (lift_row h s k))

/-- The sum along a row, at row s: the sum of the row's 2048 entries. -/
theorem rowsum_apply (v : FVec Ideal S1024x2048 .f32) (h : S1024x2048.Reduces [1] S1024) (hφ : FKind.Formats .f32)
    (hacc : (0x00000000#32 : BitVec (FTy.bits .f32)) = FKind.add.neutral .f32 hφ) (s : Fin 1024) :
    multiReduction (F := Ideal) .add [1] S1024 v 0x00000000#32 h hφ hacc (ix1 s) = ∑ k : Fin 2048, v (ix2 s k) := by
  refine (Ideal.multiReduction_add_single v 0x00000000#32 h hφ hacc (ix1 s)).trans ?_
  show ∑ k : Fin 2048, v (h.lift (ix1 s) k) = _
  exact Finset.sum_congr rfl fun k _ => congrArg v (lift_row h s k)

/-! ## A column of 1024 row values spread along the rows -/

/-- The 1024 row values as a [1024, 1] column: entry (s, 0) is row value s. -/
theorem column_apply {α : Type} (w : S1024.Idx → α) (h : S1024.ShapeCasts S1024x1) (s : Fin 1024) (u : Fin 1) :
    shapeCast S1024x1 w h (ix2 s u) = w (ix1 s) :=
  shapeCast_apply w h _ _ (by
    have hu : u.val = 0 := by omega
    rw [Shape.rowMajor_val_two, Shape.rowMajor_val_one]
    show s.val = s.val * 1 + u.val
    omega)

/-- The column spread over the 2048 positions of each row: entry (s, k) is the column's entry (s, 0). -/
theorem spread_apply {α : Type} (w : S1024x1.Idx → α) (h : S1024x1.Broadcasts S1024x2048) (s : Fin 1024) (k : Fin 2048) :
    broadcastTo S1024x2048 w h (ix2 s k) = w (ix2 s (0 : Fin 1)) := by
  refine broadcastTo_apply w h (ix2 s k) (ix2 s (0 : Fin 1)) fun ax => ?_
  match ax with
  | ⟨0, _⟩ => rfl
  | ⟨1, _⟩ => rfl

/-- Both together: the row values spread over the rows' positions. -/
theorem keepdims_apply {α : Type} (w : S1024.Idx → α) (h : S1024.ShapeCasts S1024x1) (h' : S1024x1.Broadcasts S1024x2048)
    (s : Fin 1024) (k : Fin 2048) : broadcastTo S1024x2048 (shapeCast S1024x1 w h) h' (ix2 s k) = w (ix1 s) :=
  (spread_apply _ h' s k).trans (column_apply w h s 0)

/-! ## The body's stages -/

/-- The scaled logits of the block's 1024 query rows against the pair's 2048 key rows. -/
def logits (x0 : FVec Ideal S1x1024x64 .bf16) (x1 : FVec Ideal S1x2048x64 .bf16) : FVec Ideal S1024x2048 .f32 :=
  mulf (matmul dot_S1024x64_S2048x64_S1024x2048_1_1_0_0_n_n none (shapeCast S1024x64 x0 shapeCasts_S1x1024x64_S1024x64)
      (shapeCast S2048x64 x1 shapeCasts_S1x2048x64_S2048x64) (constant (F := Ideal) S1024x2048 .f32 0x00000000#32))
    (broadcast S1024x2048 (Scalar.ofBits (F := Ideal) .f32 0x3E000000#32))

/-- Each row's maximum, taken from minus infinity and compared with minus infinity once more. -/
def rowMaxima (L : FVec Ideal S1024x2048 .f32) : FVec Ideal S1024 .f32 :=
  maximumf (broadcast S1024 (Scalar.ofBits (F := Ideal) .f32 0xFF800000#32))
    (multiReduction (F := Ideal) .maximumf [1] S1024 L 0xFF800000#32 reduces_S1024x2048_S1024 (.inl rfl) rfl)

/-- The exponentials of the logits shifted by their row's maximum. -/
def shiftedExp (L : FVec Ideal S1024x2048 .f32) : FVec Ideal S1024x2048 .f32 :=
  exp (subf L (broadcastTo S1024x2048 (shapeCast S1024x1 (rowMaxima L) shapeCasts_S1024_S1024x1) broadcasts_S1024x1_S1024x2048))

/-- The softmax weights: each shifted exponential over its row's sum. -/
def weights (L : FVec Ideal S1024x2048 .f32) : FVec Ideal S1024x2048 .bf16 :=
  truncf .bf16 (divf (shiftedExp L) (broadcastTo S1024x2048 (shapeCast S1024x1
      (multiReduction (F := Ideal) .add [1] S1024 (shiftedExp L) 0x00000000#32 reduces_S1024x2048_S1024 (.inl rfl) rfl)
      shapeCasts_S1024_S1024x1) broadcasts_S1024x1_S1024x2048)) bitsLt_bf16_f32

/-- The weights times the pair's values, cast back to a [1, 1024, 64] block. -/
def attended (x0 : FVec Ideal S1x1024x64 .bf16) (x1 x2 : FVec Ideal S1x2048x64 .bf16) : FVec Ideal S1x1024x64 .bf16 :=
  shapeCast S1x1024x64 (truncf .bf16 (matmul dot_S1024x2048_S2048x64_S1024x64_1_0_0_1_n_n none (weights (logits x0 x1))
      (shapeCast S2048x64 x2 shapeCasts_S1x2048x64_S2048x64) (constant (F := Ideal) S1024x64 .f32 0x00000000#32)) bitsLt_bf16_f32)
    shapeCasts_S1024x64_S1x1024x64

/-- The exponential of a vector at an index is the exponential of its entry. -/
theorem exp_apply {s : Shape} {φ : FTy} (x : FVec Ideal s φ) (i : s.Idx) : exp x i = Ideal.exp (x i) := rfl

/-- The logit at (s, k): the inner product of query row s and key row k, times one eighth. -/
theorem logits_apply (x0 : FVec Ideal S1x1024x64 .bf16) (x1 : FVec Ideal S1x2048x64 .bf16) (s : Fin 1024) (k : Fin 2048) :
    logits x0 x1 (ix2 s k)
      = Cert.Spec.logit (fun d => x0 (ix3 (0 : Fin 1) s d)) (fun d => x1 (ix3 (0 : Fin 1) k d)) Cert.Spec.eighth := by
  unfold logits Cert.Spec.logit
  refine (mulf_apply _ _ (ix2 s k)).trans ?_
  refine congrArg₂ (· * ·) ((qk_apply _ _ s k).trans (Finset.sum_congr rfl fun d _ => ?_)) (broadcast_apply _ _)
  exact congrArg₂ (· * ·) (shapeCast_1ab_ab_apply x0 _ s d) (shapeCast_1ab_ab_apply x1 _ k d)

/-- Row s's maximum. -/
theorem rowMaxima_apply (L : FVec Ideal S1024x2048 .f32) (s : Fin 1024) :
    rowMaxima L (ix1 s) = Cert.Spec.rowMax (fun k => L (ix2 s k)) := by
  unfold rowMaxima Cert.Spec.rowMax
  refine (maximumf_apply _ _ (ix1 s)).trans ?_
  exact congrArg₂ max (broadcast_apply _ _) (rowmax_apply L _ _ _ s)

/-- The shifted exponential at (s, k). -/
theorem shiftedExp_apply (L : FVec Ideal S1024x2048 .f32) (s : Fin 1024) (k : Fin 2048) :
    shiftedExp L (ix2 s k) = Ideal.exp (L (ix2 s k) - Cert.Spec.rowMax (fun k' => L (ix2 s k'))) := by
  unfold shiftedExp
  refine (exp_apply _ (ix2 s k)).trans (congrArg Ideal.exp ?_)
  refine (subf_apply _ _ (ix2 s k)).trans (congrArg (L (ix2 s k) - ·) ?_)
  exact (keepdims_apply _ _ _ s k).trans (rowMaxima_apply L s)

/-- The weight at (s, k): entry k of the softmax of row s of the logits. -/
theorem weights_apply (L : FVec Ideal S1024x2048 .f32) (s : Fin 1024) (k : Fin 2048) :
    weights L (ix2 s k) = Cert.Spec.softmaxAt (fun k' => L (ix2 s k')) k := by
  unfold weights Cert.Spec.softmaxAt
  refine (truncf_apply (ψ := .bf16) _ bitsLt_bf16_f32 (ix2 s k)).trans ?_
  refine (divf_apply _ _ (ix2 s k)).trans ?_
  refine congrArg₂ Ideal.div (shiftedExp_apply L s k) ?_
  refine (keepdims_apply _ _ _ s k).trans ?_
  refine (rowsum_apply (shiftedExp L) _ _ _ s).trans ?_
  exact Finset.sum_congr rfl fun k' _ => shiftedExp_apply L s k'

/-- The stored block at (0, s, j). -/
theorem attended_apply (x0 : FVec Ideal S1x1024x64 .bf16) (x1 x2 : FVec Ideal S1x2048x64 .bf16) (s : Fin 1024) (j : Fin 64) :
    attended x0 x1 x2 (ix3 (0 : Fin 1) s j)
      = Cert.Spec.softAttend (fun k => Cert.Spec.logit (fun d => x0 (ix3 (0 : Fin 1) s d)) (fun d => x1 (ix3 (0 : Fin 1) k d)) Cert.Spec.eighth)
          (fun k => x2 (ix3 (0 : Fin 1) k j)) := by
  unfold attended
  refine (shapeCast_ab_1ab_apply _ _ (0 : Fin 1) s j).trans ?_
  refine (truncf_apply (ψ := .bf16) _ bitsLt_bf16_f32 (ix2 s j)).trans ?_
  refine (pv_apply _ _ s j).trans ?_
  unfold Cert.Spec.softAttend
  refine Finset.sum_congr rfl fun k _ => ?_
  refine congrArg₂ (· * ·) ((weights_apply _ s k).trans ?_) (shapeCast_1ab_ab_apply x2 _ k j)
  exact congrArg (fun L => Cert.Spec.softmaxAt L k) (funext fun k' => logits_apply x0 x1 s k')

/-! ## The body at an index -/

/-- The body's stored block, stage by stage: the logits, their rows' softmax weights, the weights times the values. -/
theorem pay_eq_attended (x0 : Vec Ideal S1x1024x64 .bf16) (x1 x2 : Vec Ideal S1x2048x64 .bf16) :
    k1_pay1 x0 x1 x2 = attended x0 x1 x2 := rfl

/-- THE BODY AT (0, s, j): the softmax of query row s's scaled logits against the pair's key rows, averaging the value rows'
    j-th features. -/
theorem pay_apply (x0 : Vec Ideal S1x1024x64 .bf16) (x1 x2 : Vec Ideal S1x2048x64 .bf16) (s : Fin 1024) (j : Fin 64) :
    k1_pay1 x0 x1 x2 (ix3 (0 : Fin 1) s j)
      = Cert.Spec.softAttend (fun k => Cert.Spec.logit (fun d => x0 (ix3 (0 : Fin 1) s d)) (fun d => x1 (ix3 (0 : Fin 1) k d)) Cert.Spec.eighth)
          (fun k => x2 (ix3 (0 : Fin 1) k j)) :=
  (congrFun (pay_eq_attended x0 x1 x2) _).trans (attended_apply x0 x1 x2 s j)

end Cert.KernelIdeal.AttnBody

end
-- ==== Proof.Reg1Value.lean ====
/-
  The attention region's output array.

  The region runs the attention body at 64 grid points, a (batch, head) pair and a half of its 2048 query rows each.
  At a point the body reads the 1024 query rows of its half and the pair's 2048 key rows and 2048 value rows, and what
  it stores is written back to the same pair and half of the output array.  The 64 blocks tile the array, so after the
  region the array is the attention of the three input arrays at every (pair, query row, feature).
-/
import proofs.«101789_j43447889166453_1_alg».proof.Proof.Spec
import proofs.«101789_j43447889166453_1_alg».proof.Proof.Gen.KernelIdeal.Frame
import proofs.«101789_j43447889166453_1_alg».proof.Proof.Reg1Pay
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The grid's index maps -/

theorem attn_offsets_zero : (![0, 0, 0] : Fin 3 → Nat) = fun _ => 0 := funext fun a => by fin_cases a <;> rfl

/-- The printed index maps, decided over the 64 grid points: the query block moves with the output block (same pair, same
    half of the rows), the key and value blocks are the output's pair whole, and the output's block indices stay in range. -/
theorem attn_index_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 31 ∧ win1_3.index t (1 : Fin 3) ≤ 1 ∧ win1_3.index t (2 : Fin 3) = 0 :=
  (by decide +kernel : ∀ t : Fin grid1.N, _)

/-- Every (pair, half) is some point's output block. -/
theorem attn_index_onto : ∀ (q0 : Fin 32) (q1 : Fin 2), ∃ t : Fin cfg1.N, win1_3.index t = ![q0.val, q1.val, 0] :=
  (by decide +kernel : ∀ (q0 : Fin 32) (q1 : Fin 2), ∃ t : Fin grid1.N, win1_3.index t = ![q0.val, q1.val, 0])

/-! ## What a point writes back -/

/-- WHAT POINT t WRITES BACK is block t of the attention of the three arrays as the region finds them. -/
theorem attn_flushed_eq (c : Dev nD) (t : Fin cfg1.N) :
    (dat1 V c).flushed 3 t
      = ((cfg1.win 3).blk t).view.read (Elt Ideal) (Cert.Spec.attn (V c main_v12) (V c main_v13) (V c main_v14)) := by
  show (cfg1.win 3).cut (grid1.coords t) ((dat1 V c).after 3 t) = _
  rw [after1_3]
  unfold out1_3
  rw [View.canon_unit_zero attn_offsets_zero]
  simp only [View.ld_unit_zero (S := S1x1024x64) attn_offsets_zero, View.ld_unit_zero (S := S1x2048x64) attn_offsets_zero]
  obtain ⟨q0, q1, q2, k0, k1, k2, v0, v1, v2, o0, o1, o2⟩ := attn_index_facts t
  funext y
  have hy0 : (y 0).val < 1 := (y 0).isLt
  have hy1 : (y 1).val < 1024 := (y 1).isLt
  have hy2 : (y 2).val < 64 := (y 2).isLt
  -- the block's index by coordinates, and where it sits in the array
  have hx : (cfg1.win 3).xinj (grid1.coords t) y = ix3 (0 : Fin 1) (⟨(y 1).val, hy1⟩ : Fin 1024) (⟨(y 2).val, hy2⟩ : Fin 64) :=
    funext fun a => Fin.ext (by
      match a with
      | ⟨0, _⟩ => show (y 0).val = 0; omega
      | ⟨1, _⟩ => rfl
      | ⟨2, _⟩ => rfl)
  have hb : win1_3.index t (0 : Fin 3) < 32 := by omega
  have hr : win1_3.index t (1 : Fin 3) * 1024 + (y 1).val < 2048 := by omega
  have he : ((cfg1.win 3).blk t).view.emb y
      = ix3 (⟨win1_3.index t (0 : Fin 3), hb⟩ : Fin 32) (⟨win1_3.index t (1 : Fin 3) * 1024 + (y 1).val, hr⟩ : Fin 2048) (⟨(y 2).val, hy2⟩ : Fin 64) :=
    funext fun a => Fin.ext (by
      match a with
      | ⟨0, _⟩ => show win1_3.index t (0 : Fin 3) * 1 + 1 * (y 0).val = win1_3.index t (0 : Fin 3); omega
      | ⟨1, _⟩ => show win1_3.index t (1 : Fin 3) * 1024 + 1 * (y 1).val = win1_3.index t (1 : Fin 3) * 1024 + (y 1).val; omega
      | ⟨2, _⟩ => show win1_3.index t (2 : Fin 3) * 64 + 1 * (y 2).val = (y 2).val; omega)
  show k1_pay1 (iblk1 V c 0 t) (iblk1 V c 1 t) (iblk1 V c 2 t) ((cfg1.win 3).xinj (grid1.coords t) y)
      = Cert.Spec.attn (V c main_v12) (V c main_v13) (V c main_v14) (((cfg1.win 3).blk t).view.emb y)
  rw [hx, he, AttnBody.pay_apply]
  -- each input block read where it lies in its array
  have hq : ∀ d : Fin 64, iblk1 V c 0 t (ix3 (0 : Fin 1) (⟨(y 1).val, hy1⟩ : Fin 1024) d)
      = V c main_v12 (ix3 (⟨win1_3.index t (0 : Fin 3), hb⟩ : Fin 32) (⟨win1_3.index t (1 : Fin 3) * 1024 + (y 1).val, hr⟩ : Fin 2048) d) := fun d => by
    show V c main_v12 (((cfg1.win 0).blk t).view.emb (ix3 (0 : Fin 1) (⟨(y 1).val, hy1⟩ : Fin 1024) d)) = _
    refine congrArg (V c main_v12) (funext fun a => Fin.ext ?_)
    match a with
    | ⟨0, _⟩ => show win1_0.index t (0 : Fin 3) * 1 + 1 * 0 = win1_3.index t (0 : Fin 3); omega
    | ⟨1, _⟩ => show win1_0.index t (1 : Fin 3) * 1024 + 1 * (y 1).val = win1_3.index t (1 : Fin 3) * 1024 + (y 1).val; omega
    | ⟨2, _⟩ => show win1_0.index t (2 : Fin 3) * 64 + 1 * d.val = d.val; omega
  have hk : ∀ (k : Fin 2048) (d : Fin 64), iblk1 V c 1 t (ix3 (0 : Fin 1) k d)
      = V c main_v13 (ix3 (⟨win1_3.index t (0 : Fin 3), hb⟩ : Fin 32) k d) := fun k d => by
    show V c main_v13 (((cfg1.win 1).blk t).view.emb (ix3 (0 : Fin 1) k d)) = _
    refine congrArg (V c main_v13) (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * k.val = k.val; omega
    | ⟨2, _⟩ => show win1_1.index t (2 : Fin 3) * 64 + 1 * d.val = d.val; omega
  have hv : ∀ k : Fin 2048, iblk1 V c 2 t (ix3 (0 : Fin 1) k (⟨(y 2).val, hy2⟩ : Fin 64))
      = V c main_v14 (ix3 (⟨win1_3.index t (0 : Fin 3), hb⟩ : Fin 32) k (⟨(y 2).val, hy2⟩ : Fin 64)) := fun k => by
    show V c main_v14 (((cfg1.win 2).blk t).view.emb (ix3 (0 : Fin 1) k (⟨(y 2).val, hy2⟩ : Fin 64))) = _
    refine congrArg (V c main_v14) (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * k.val = k.val; omega
    | ⟨2, _⟩ => show win1_2.index t (2 : Fin 3) * 64 + 1 * (y 2).val = (y 2).val; omega
  unfold Cert.Spec.attn Cert.Spec.attnAt
  exact congrArg₂ Cert.Spec.softAttend
    (funext fun k => congrArg₂ (fun q kk => Cert.Spec.logit q kk Cert.Spec.eighth) (funext hq) (funext (hk k)))
    (funext hv)

/-! ## The blocks tile the array -/

/-- An index of the array is in point t's block iff each coordinate is in the block's range on its axis. -/
theorem attn_mem_block (t : Fin cfg1.N) (i : S32x2048x64.Idx) :
    i ∈ ((cfg1.win 3).blk t).view.set
      ↔ ∀ a : Fin 3, win1_3.index t a * S1x1024x64.size a ≤ (i a).val ∧ (i a).val < win1_3.index t a * S1x1024x64.size a + S1x1024x64.size a := by
  show i ∈ ((View.whole main_v15).slice (win1_3.rect t)).set ↔ _
  rw [View.set_slice_whole, Rect.mem_set_unit]
  exact Iff.rfl

/-- Every index of the array is in some point's block: row r of pair b is in the block of (b, r / 1024). -/
theorem attn_cover (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := attn_index_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [attn_mem_block]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-! ## The array after the region -/

/-- After the attention region its output array is, at every (pair, query row, feature), the softmax-weighted average
    of the pair's value rows, the logits the scaled inner products of the query row with the pair's key rows. -/
theorem region1_value (c : Dev nD) :
    (dat1 V c).arrAt 3 cfg1.N = Cert.Spec.attn (V c main_v12) (V c main_v13) (V c main_v14) :=
  (dat1 V c).arrAt_eq_of_cover 3 _ (fun t _ => attn_flushed_eq V c t) attn_cover

end Cert.KernelIdeal.RegionValue

end
-- ==== Proof.Reg2Value.lean ====
/-
  Stage three of the program as a whole array.  The region multiplies the 4096 × 1024 attention rows by the
  1024 × 1024 transposed output weights in eight tiles of 512 rows: grid point t reads rows 512·t … 512·t + 511 of the
  attention output and the whole weights, and writes rows 512·t … 512·t + 511 of the result.  Entry (p, q) of a tile is
  the sum over the 1024 features of the row tile's (p, k) entry times the weights' (k, q) entry; read where the tile sits
  in the array, that is entry (512·t + p, q) of the whole product.  The eight tiles cover the array, so the array ends
  holding the whole product.
-/
import proofs.«101789_j43447889166453_1_alg».proof.Proof.Spec
import proofs.«101789_j43447889166453_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The tile product at an index -/

/-- On the left operand's row axis the contraction's left index is the result's row. -/
theorem outp_lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- On the left operand's feature axis it is the summation position. -/
theorem outp_lhs_feat (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- On the right operand's feature axis the contraction's right index is the summation position. -/
theorem outp_rhs_feat (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- On the right operand's column axis it is the result's column. -/
theorem outp_rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, q) of what the body stores: the sum over the 1024 features of the row tile's (p, k) entry times the
    weights' (k, q) entry.  The accumulator starts at zero and the sum is stored as it is. -/
theorem outp_tile_apply (x0 : FVec Ideal S512x1024 .bf16) (x1 : FVec Ideal S1024x1024 .bf16) (p : Fin 512) (q : Fin 1024) :
    k2_pay1 (F := Ideal) x0 x1 (ix2 p q) = ∑ k : Fin 1024, x0 (ix2 p k) * x1 (ix2 k q) := by
  unfold k2_pay1
  refine (Ideal.matmul_constant_zero_apply dot_S512x1024_S1024x1024_S512x1024_1_0_0_1_n_n none _ _ (ix2 p q)).trans ?_
  rw [shapeCast_self, shapeCast_self, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact outp_lhs_row _ _
    | ⟨1, _⟩ => exact (outp_lhs_feat _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (outp_rhs_feat _ _).trans hk
    | ⟨1, _⟩ => exact outp_rhs_col _ _)
  rw [el, er]

/-! ## From the tiles to the array -/

/-- The zero offset of a whole-tile access. -/
theorem outp_origin_zero : (![0, 0] : Fin 2 → Nat) = fun _ => 0 := funext fun a => by fin_cases a <;> rfl

/-- The printed index maps over the grid: the attention rows' tile moves with the output's tile down the rows and stays in
    column 0, the weights stay whole at tile (0, 0), and the output's tile index runs over 0 … 7 in column 0. -/
theorem outp_tile_indices : ∀ t : Fin cfg2.N, win2_0.index t (0 : Fin 2) = win2_2.index t (0 : Fin 2) + 0
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 7 :=
  (by decide +kernel : ∀ t : Fin grid2.N, _)

/-- Every one of the eight row tiles is some grid point's. -/
theorem outp_tile_onto : ∀ (q0 : Fin 8), ∃ t : Fin cfg2.N, win2_2.index t = ![q0.val + 0, 0] :=
  (by decide +kernel : ∀ (q0 : Fin 8), ∃ t : Fin grid2.N, win2_2.index t = ![q0.val + 0, 0])

/-- What grid point t writes back is tile t of the whole product of the attention rows and the weights. -/
theorem outp_flushed (c : Dev nD) (t : Fin cfg2.N) :
    (dat2 V c).flushed 2 t = ((cfg2.win 2).blk t).view.read (Elt Ideal) (Cert.Spec.outp (V c main_v18) (V c main_v3)) := by
  show (cfg2.win 2).cut (grid2.coords t) ((dat2 V c).after 2 t) = _
  rw [after2_2]
  unfold out2_2
  rw [View.canon_unit_zero outp_origin_zero]
  simp only [View.ld_unit_zero (S := S512x1024) outp_origin_zero, View.ld_unit_zero (S := S1024x1024) outp_origin_zero]
  obtain ⟨e0, e1, e2, e3, e4, e5⟩ := outp_tile_indices t
  funext j
  obtain ⟨p, q, rfl⟩ : ∃ (p : Fin 512) (q : Fin 1024), j = ix2 p q := ⟨j 0, j 1, eq_ix2 j⟩
  show k2_pay1 (F := Ideal) (iblk2 V c 0 t) (iblk2 V c 1 t) (ix2 p q) = Cert.Spec.outp (V c main_v18) (V c main_v3) (((cfg2.win 2).blk t).view.emb (ix2 p q))
  refine (outp_tile_apply _ _ p q).trans ?_
  unfold Cert.Spec.outp Cert.Spec.outAt
  refine Finset.sum_congr rfl fun k _ => ?_
  have h0 : ((cfg2.win 0).blk t).view.emb (ix2 p k) = (ix2 ⟨((((cfg2.win 2).blk t).view.emb (ix2 p q)) 0).val, idx2_lt0 _⟩ k : S4096x1024.Idx) := by
    funext a; apply Fin.ext
    match a with
    | ⟨0, _⟩ => show win2_0.index t (0 : Fin 2) * 512 + 1 * p.val = win2_2.index t (0 : Fin 2) * 512 + 1 * p.val; omega
    | ⟨1, _⟩ => show win2_0.index t (1 : Fin 2) * 1024 + 1 * k.val = k.val; omega
  have h1 : ((cfg2.win 1).blk t).view.emb (ix2 k q) = (ix2 k ⟨((((cfg2.win 2).blk t).view.emb (ix2 p q)) 1).val, idx2_lt1 _⟩ : S1024x1024.Idx) := by
    funext a; apply Fin.ext
    match a with
    | ⟨0, _⟩ => show win2_1.index t (0 : Fin 2) * 1024 + 1 * k.val = k.val; omega
    | ⟨1, _⟩ => show win2_1.index t (1 : Fin 2) * 1024 + 1 * q.val = win2_2.index t (1 : Fin 2) * 1024 + 1 * q.val; omega
  refine congrArg₂ (· * ·) ?_ ?_
  · exact congrArg (V c main_v18 : S4096x1024.Idx → EReal) h0
  · exact congrArg (V c main_v3 : S1024x1024.Idx → EReal) h1

/-- An index of the array is in grid point t's tile exactly when each coordinate is in the tile's range on its axis. -/
theorem outp_mem_tile (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v19).slice (win2_2.rect t)).set ↔ _
  rw [View.set_slice_whole, Rect.mem_set_unit]
  exact Iff.rfl

/-- The tiles cover the array: row r lies in row tile r / 512, and every tile spans all 1024 columns. -/
theorem outp_tiles_cover (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := outp_tile_onto ⟨(i 0).val / 512, by omega⟩
  have q0 : win2_2.index t (0 : Fin 2) = (i 0).val / 512 + 0 := congrFun ht 0
  have q1 : win2_2.index t (1 : Fin 2) = 0 := congrFun ht 1
  refine ⟨t, flush2_2 t, ?_⟩
  rw [outp_mem_tile]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- After the last tiled product the output array is the whole product of the attention rows with the transposed
    output weights, as the region finds them. -/
theorem region2_value (c : Dev nD) :
    (dat2 V c).arrAt 2 cfg2.N = Cert.Spec.outp (V c main_v18) (V c main_v3) :=
  (dat2 V c).arrAt_eq_of_cover 2 _ (fun t _ => outp_flushed V c t) outp_tiles_cover

end Cert.KernelIdeal.RegionValue

end
-- ==== Proof.KValue.lean ====
import proofs.«101789_j43447889166453_1_alg».proof.Proof.Spec
import proofs.«101789_j43447889166453_1_alg».proof.Proof.Gen.KernelIdeal.Frame
import Idealize.ShloMosaic.Lib.StableHlo.Run
import proofs.«101789_j43447889166453_1_alg».proof.Proof.Reg0Value
import proofs.«101789_j43447889166453_1_alg».proof.Proof.Reg1Value
import proofs.«101789_j43447889166453_1_alg».proof.Proof.Reg2Value

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! The program's buffers, read forward from the launch: each stretch of re-laying operations is applied to what the
    region before it left, each region leaves its whole-array function of what it found, and the transposed output
    weights, written before the first region, are read unchanged by the third. -/

/-! ## Before the first product -/

/-- The first product's left operand is the tokens as 4096 rows. -/
theorem tokens_at_entry (c : Dev nD) :
    W1 m ρ c (Proc.devRef .tc main_v5) = Cert.Spec.tokens (m ((c : Thread nD τ).loc main_arg0)) := by
  unfold Cert.Spec.tokens
  dsimp only [W1, hostOps0]
  after_results
  rfl

/-- Its right operand is the transposed projection weights. -/
theorem wqkv_at_entry (c : Dev nD) :
    W1 m ρ c (Proc.devRef .tc main_v1) = Cert.Spec.wqkvT (m ((c : Thread nD τ).loc main_arg1)) := by
  unfold Cert.Spec.wqkvT
  dsimp only [W1, hostOps0]
  after_results

/-- The transposed output weights are written here too. -/
theorem wo_at_entry (c : Dev nD) :
    W1 m ρ c (Proc.devRef .tc main_v3) = Cert.Spec.woT (m ((c : Thread nD τ).loc main_arg2)) := by
  unfold Cert.Spec.woT
  dsimp only [W1, hostOps0]
  after_results

/-! ## The first product -/

/-- The projected features: tokens times transposed projection weights. -/
theorem projected (c : Dev nD) :
    W2 m ρ c (Proc.devRef .tc main_v6) = Cert.Spec.proj (Cert.Spec.tokens (m ((c : Thread nD τ).loc main_arg0))) (Cert.Spec.wqkvT (m ((c : Thread nD τ).loc main_arg1))) := by
  refine (W2_arr m ρ c 2).trans ?_
  rw [Cert.KernelIdeal.RegionValue.region0_value]
  show Cert.Spec.proj (W1 m ρ c (Proc.devRef .tc main_v5)) (W1 m ρ c (Proc.devRef .tc main_v1)) = _
  rw [tokens_at_entry, wqkv_at_entry]

/-! ## Queries, keys and values per pair -/

theorem queries (c : Dev nD) :
    W3 m ρ c (Proc.devRef .tc main_v12) = Cert.Spec.qs (m ((c : Thread nD τ).loc main_arg0)) (m ((c : Thread nD τ).loc main_arg1)) := by
  unfold Cert.Spec.qs Cert.Spec.heads
  rw [← projected m ρ c]
  dsimp only [W3, hostOps1]
  after_results
  rfl

theorem keys (c : Dev nD) :
    W3 m ρ c (Proc.devRef .tc main_v13) = Cert.Spec.ks (m ((c : Thread nD τ).loc main_arg0)) (m ((c : Thread nD τ).loc main_arg1)) := by
  unfold Cert.Spec.ks Cert.Spec.heads
  rw [← projected m ρ c]
  dsimp only [W3, hostOps1]
  after_results
  rfl

theorem values (c : Dev nD) :
    W3 m ρ c (Proc.devRef .tc main_v14) = Cert.Spec.vs (m ((c : Thread nD τ).loc main_arg0)) (m ((c : Thread nD τ).loc main_arg1)) := by
  unfold Cert.Spec.vs Cert.Spec.heads
  rw [← projected m ρ c]
  dsimp only [W3, hostOps1]
  after_results
  rfl

/-! ## Attention -/

theorem attention (c : Dev nD) :
    W4 m ρ c (Proc.devRef .tc main_v15)
      = Cert.Spec.attn (Cert.Spec.qs (m ((c : Thread nD τ).loc main_arg0)) (m ((c : Thread nD τ).loc main_arg1))) (Cert.Spec.ks (m ((c : Thread nD τ).loc main_arg0)) (m ((c : Thread nD τ).loc main_arg1))) (Cert.Spec.vs (m ((c : Thread nD τ).loc main_arg0)) (m ((c : Thread nD τ).loc main_arg1))) := by
  refine (W4_arr m ρ c 3).trans ?_
  rw [Cert.KernelIdeal.RegionValue.region1_value]
  show Cert.Spec.attn (W3 m ρ c (Proc.devRef .tc main_v12)) (W3 m ρ c (Proc.devRef .tc main_v13)) (W3 m ρ c (Proc.devRef .tc main_v14)) = _
  rw [queries, keys, values]

/-! ## Before the last product -/

/-- Its left operand: the attention output back as 4096 rows. -/
theorem attended (c : Dev nD) :
    W5 m ρ c (Proc.devRef .tc main_v18) = Cert.Spec.attended (m ((c : Thread nD τ).loc main_arg0)) (m ((c : Thread nD τ).loc main_arg1)) := by
  unfold Cert.Spec.attended
  rw [← attention m ρ c]
  dsimp only [W5, hostOps2]
  after_results
  rfl

/-- Its right operand: the transposed output weights, untouched since they were written. -/
theorem wo_at_last (c : Dev nD) :
    W5 m ρ c (Proc.devRef .tc main_v3) = Cert.Spec.woT (m ((c : Thread nD τ).loc main_arg2)) :=
  calc W5 m ρ c (Proc.devRef .tc main_v3)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)
    _ = Cert.Spec.woT (m ((c : Thread nD τ).loc main_arg2)) := wo_at_entry m ρ c

/-! ## The last product and the result -/

theorem output_rows (c : Dev nD) :
    W6 m ρ c (Proc.devRef .tc main_v19) = Cert.Spec.outp (Cert.Spec.attended (m ((c : Thread nD τ).loc main_arg0)) (m ((c : Thread nD τ).loc main_arg1))) (Cert.Spec.woT (m ((c : Thread nD τ).loc main_arg2))) := by
  refine (W6_arr m ρ c 2).trans ?_
  rw [Cert.KernelIdeal.RegionValue.region2_value]
  show Cert.Spec.outp (W5 m ρ c (Proc.devRef .tc main_v18)) (W5 m ρ c (Proc.devRef .tc main_v3)) = _
  rw [attended, wo_at_last]

/-- The result buffer after the run is the program's value of the argument arrays. -/
theorem result_value (c : Dev nD) :
    W7 m ρ c (Proc.devRef .tc main_v20) = Cert.Spec.result (m ((c : Thread nD τ).loc main_arg0)) (m ((c : Thread nD τ).loc main_arg1)) (m ((c : Thread nD τ).loc main_arg2)) := by
  unfold Cert.Spec.result
  rw [← output_rows m ρ c]
  dsimp only [W7, hostOps3]
  after_results
  rfl

end Cert.KernelIdeal.Fold

end
-- ==== Proof.BridgeProj.lean ====
import proofs.«101789_j43447889166453_1_alg».proof.Proof.Spec
import proofs.«101789_j43447889166453_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.KernelIdeal.Facts₀

variable (x : (⟨Cert.ReferenceIdeal.S2x2048x1024, .f32⟩ : BufTy).Contents (Elt Ideal))
  (w : (⟨Cert.ReferenceIdeal.S3072x1024, .f32⟩ : BufTy).Contents (Elt Ideal))
  (o : (⟨Cert.ReferenceIdeal.S1024x1024, .f32⟩ : BufTy).Contents (Elt Ideal))

/-! The first stage on both sides: the kernel multiplies the 4096 token rows by the transposed weights; the reference
    contracts the feature axis of the [2, 2048, 1024] tokens with that of the [3072, 1024] weights.  Laid out as
    [2, 2048, 16, 192] both are, at (n, s, h, j), the sum over d of token (n, s)'s d-th feature times weight
    (192·h + j, d); the later exchange of axes and the three slices are then the same operations of the same array. -/

/-- Token row 2048·n + s, feature k, is the token array's entry (n, s, k). -/
theorem tokens_apply (n : Fin 2) (s : Fin 2048) (k : Fin 1024) :
    Cert.Spec.tokens x (ix2 (⟨n.val * 2048 + s.val, by omega⟩ : Fin 4096) k) = x (ix3 n s k) := by
  unfold Cert.Spec.tokens
  refine (shapeCast_apply _ _ _ (ix3 n s k) ?_).trans rfl
  rw [Shape.rowMajor_val_three, Shape.rowMajor_val_two]
  rfl

/-- The transposed projection weights at (k, e) are the weights at (e, k). -/
theorem wqkvT_apply (k : Fin 1024) (e : Fin 3072) : Cert.Spec.wqkvT w (ix2 k e) = w (ix2 e k) := by
  unfold Cert.Spec.wqkvT
  exact transpose_apply [1, 0] _ _ (ix2 k e) (ix2 e k) (fun b => match b with | ⟨0, _⟩ => rfl | ⟨1, _⟩ => rfl)

/-- The projected features laid out by (batch, position, head, feature) are the reference's. -/
theorem projected_eq :
    (shapeCast Cert.KernelIdeal.S2x2048x16x192 (Cert.Spec.proj (Cert.Spec.tokens x) (Cert.Spec.wqkvT w)) shapeCasts_S4096x3072_S2x2048x16x192
      : Cert.ReferenceIdeal.S2x2048x16x192.Idx → EReal)
      = Cert.ReferenceIdeal.Read.val_main_v1 (F := Ideal) x w := by
  funext i
  obtain ⟨n, s, h, j, rfl⟩ : ∃ (n : Fin 2) (s : Fin 2048) (h : Fin 16) (j : Fin 192), i = ix4 n s h j :=
    ⟨i 0, i 1, i 2, i 3, eq_ix4 i⟩
  have hn := n.isLt; have hs := s.isLt; have hh := h.isLt; have hj := j.isLt
  rw [Cert.ReferenceIdeal.Read.val_main_v1_apply, Cert.ReferenceIdeal.Read.val_main_v0_apply]
  refine (shapeCast_apply _ _ _ (ix2 (⟨n.val * 2048 + s.val, by omega⟩ : Fin 4096) (⟨h.val * 192 + j.val, by omega⟩ : Fin 3072)) ?_).trans ?_
  · rw [Shape.rowMajor_val_two, Shape.rowMajor_val_four]
    show (n.val * 2048 + s.val) * 3072 + (h.val * 192 + j.val) = ((n.val * 2048 + s.val) * 16 + h.val) * 192 + j.val
    omega
  · show Cert.Spec.projAt _ _ (⟨n.val * 2048 + s.val, _⟩ : Fin 4096) (⟨h.val * 192 + j.val, _⟩ : Fin 3072) = _
    unfold Cert.Spec.projAt
    refine Finset.sum_congr rfl fun k _ => ?_
    rw [tokens_apply, wqkvT_apply]
    have e1 : (ix3 n s k : Cert.ReferenceIdeal.S2x2048x1024.Idx)
        = Cert.ReferenceIdeal.Read.lidx_main_v0 (Cert.ReferenceIdeal.Read.idx_main_v1 (ix4 n s h j)) k :=
      funext fun a => Fin.ext (by
        match a with
        | ⟨0, _⟩ => show n.val = ((((n.val * 2048 + s.val) * 16 + h.val) * 192 + j.val) / 6291456); omega
        | ⟨1, _⟩ => show s.val = ((((n.val * 2048 + s.val) * 16 + h.val) * 192 + j.val) / 3072 % 2048); omega
        | ⟨2, _⟩ => rfl)
    have e2 : (ix2 (⟨h.val * 192 + j.val, by omega⟩ : Fin 3072) k : Cert.ReferenceIdeal.S3072x1024.Idx)
        = Cert.ReferenceIdeal.Read.ridx_main_v0 (Cert.ReferenceIdeal.Read.idx_main_v1 (ix4 n s h j)) k :=
      funext fun a => Fin.ext (by
        match a with
        | ⟨0, _⟩ => show h.val * 192 + j.val = ((((n.val * 2048 + s.val) * 16 + h.val) * 192 + j.val) % 3072); omega
        | ⟨1, _⟩ => rfl)
    rw [e1, e2]

/-- So are they after the exchange of the position and head axes. -/
theorem heads_eq : Cert.Spec.heads x w = Cert.ReferenceIdeal.Read.val_main_v2 (F := Ideal) x w := by
  unfold Cert.Spec.heads Cert.ReferenceIdeal.Read.val_main_v2
  rw [projected_eq]

/-- The kernel's queries, keys and values are the reference's, pair by pair. -/
theorem qs_eq : Cert.Spec.qs x w
    = shapeCast Cert.KernelIdeal.S32x2048x64 (Cert.ReferenceIdeal.Read.val_main_v3 (F := Ideal) x w) shapeCasts_S2x16x2048x64_S32x2048x64 := by
  unfold Cert.Spec.qs Cert.ReferenceIdeal.Read.val_main_v3
  rw [heads_eq]
theorem ks_eq : Cert.Spec.ks x w
    = shapeCast Cert.KernelIdeal.S32x2048x64 (Cert.ReferenceIdeal.Read.val_main_v4 (F := Ideal) x w) shapeCasts_S2x16x2048x64_S32x2048x64 := by
  unfold Cert.Spec.ks Cert.ReferenceIdeal.Read.val_main_v4
  rw [heads_eq]
theorem vs_eq : Cert.Spec.vs x w
    = shapeCast Cert.KernelIdeal.S32x2048x64 (Cert.ReferenceIdeal.Read.val_main_v5 (F := Ideal) x w) shapeCasts_S2x16x2048x64_S32x2048x64 := by
  unfold Cert.Spec.vs Cert.ReferenceIdeal.Read.val_main_v5
  rw [heads_eq]

end Cert.Bridge

end
-- ==== Proof.BridgeAttn.lean ====
import proofs.«101789_j43447889166453_1_alg».proof.Proof.Spec
import proofs.«101789_j43447889166453_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.KernelIdeal.Facts₀

/-! ## The scale: three f32 words as real numbers -/

/-- The f32 word 0x42800000 is the real number sixty-four. -/
theorem ofBits_sixtyfour : Ideal.ofBits .f32 0x42800000#32 = ((64 : ℝ) : EReal) := by
  simp [Ideal.ofBits, Ideal.ieee, -EReal.coe_mul]; norm_num

/-- The f32 word 0x3F800000 is the real number one. -/
theorem ofBits_one : Ideal.ofBits .f32 0x3F800000#32 = ((1 : ℝ) : EReal) := by
  simp [Ideal.ofBits, Ideal.ieee, -EReal.coe_mul]; norm_num

/-- The f32 word 0x3E000000 is the real number one eighth. -/
theorem ofBits_eighth : Ideal.ofBits .f32 0x3E000000#32 = (((1 : ℝ) / 8 : ℝ) : EReal) := by
  simp [Ideal.ofBits, Ideal.ieee, -EReal.coe_mul]; norm_num

/-- Eight is the square root of sixty-four. -/
theorem sqrt_sixtyfour : Real.sqrt 64 = 8 := by
  rw [show (64 : ℝ) = 8 * 8 by norm_num]; exact Real.sqrt_mul_self (by norm_num)

/-- The reference's logit scale, one over the square root of sixty-four, is one eighth. -/
theorem scale_eq : Ideal.div (Ideal.ofBits .f32 0x3F800000#32) (Ideal.sqrt (Ideal.ofBits .f32 0x42800000#32)) = Cert.Spec.eighth := by
  show _ = Ideal.ofBits .f32 0x3E000000#32
  rw [ofBits_sixtyfour, ofBits_one, ofBits_eighth, Ideal.sqrt_coe, if_neg (by norm_num), sqrt_sixtyfour,
    Ideal.div_coe (by norm_num), ← EReal.coe_mul, one_mul]

/-! ## Indices: the pair axis split into batch and head -/

/-- Pair b = 16·n + h of the [32, 2048, 64] layout is (n, h) of the [2, 16, 2048, 64] layout: the two have the same
    row-major position, ((16 n + h) · 2048 + s) · 64 + d. -/
theorem cast_at (X : Cert.ReferenceIdeal.S2x16x2048x64.Idx → EReal)
    (hc : Cert.ReferenceIdeal.S2x16x2048x64.ShapeCasts Cert.KernelIdeal.S32x2048x64)
    (n : Fin 2) (h : Fin 16) (s : Fin 2048) (d : Fin 64) (hb : n.val * 16 + h.val < 32) :
    shapeCast Cert.KernelIdeal.S32x2048x64 X hc (ix3 ⟨n.val * 16 + h.val, hb⟩ s d) = X (ix4 n h s d) := by
  refine shapeCast_apply X hc _ (ix4 n h s d) ?_
  rw [Shape.rowMajor_val_three, Shape.rowMajor_val_four]
  rfl

/-- Back again: entry (n, h, s, j) of the [2, 16, 2048, 64] layout of a [32, 2048, 64] array is its entry (16·n + h, s, j). -/
theorem uncast_at (Y : Cert.KernelIdeal.S32x2048x64.Idx → EReal)
    (hc : Cert.KernelIdeal.S32x2048x64.ShapeCasts Cert.KernelIdeal.S2x16x2048x64)
    (n : Fin 2) (h : Fin 16) (s : Fin 2048) (j : Fin 64) (hb : n.val * 16 + h.val < 32) :
    shapeCast Cert.KernelIdeal.S2x16x2048x64 Y hc (ix4 n h s j) = Y (ix3 ⟨n.val * 16 + h.val, hb⟩ s j) := by
  refine shapeCast_apply Y hc _ (ix3 ⟨n.val * 16 + h.val, hb⟩ s j) ?_
  rw [Shape.rowMajor_val_three, Shape.rowMajor_val_four]
  rfl

/-- Stage two read at (b, s, j). -/
theorem attn_at (Q K V : Cert.KernelIdeal.S32x2048x64.Idx → EReal) (b : Fin 32) (s : Fin 2048) (j : Fin 64) :
    Cert.Spec.attn Q K V (ix3 b s j) = Cert.Spec.attnAt Q K V b s j := rfl

/-! ## The reference's stages read at (n, h, s, ·) -/

section Reference
open Cert.ReferenceIdeal.Read

variable (x : (⟨Cert.ReferenceIdeal.S2x2048x1024, .f32⟩ : BufTy).Contents (Elt Ideal))
  (w : (⟨Cert.ReferenceIdeal.S3072x1024, .f32⟩ : BufTy).Contents (Elt Ideal))

/-- The broadcast scale is one eighth at every index. -/
theorem ref_scale (i : Cert.ReferenceIdeal.S2x16x2048x2048.Idx) : val_main_v9 (F := Ideal) i = Cert.Spec.eighth := by
  rw [val_main_v9_apply, val_main_v7_apply, val_main_cst_0_apply, val_main_v6_apply, val_main_cst_apply]
  exact scale_eq

/-- In the inner product for logit (n, h, s, k), term d reads the queries at (n, h, s, d) … -/
theorem lidx_v8_at (n : Fin 2) (h : Fin 16) (s k : Fin 2048) (d : Fin 64) :
    lidx_main_v8 (ix4 n h s k) d = ix4 n h s d :=
  funext fun a => Fin.ext (by match a with | ⟨0, _⟩ => rfl | ⟨1, _⟩ => rfl | ⟨2, _⟩ => rfl | ⟨3, _⟩ => rfl)

/-- … and the keys at (n, h, k, d). -/
theorem ridx_v8_at (n : Fin 2) (h : Fin 16) (s k : Fin 2048) (d : Fin 64) :
    ridx_main_v8 (ix4 n h s k) d = ix4 n h k d :=
  funext fun a => Fin.ext (by match a with | ⟨0, _⟩ => rfl | ⟨1, _⟩ => rfl | ⟨2, _⟩ => rfl | ⟨3, _⟩ => rfl)

/-- The reference's scaled logit of query row s against key row k. -/
theorem ref_logit (n : Fin 2) (h : Fin 16) (s k : Fin 2048) :
    val_main_v10 (F := Ideal) x w (ix4 n h s k)
      = Cert.Spec.logit (fun d => val_main_v3 (F := Ideal) x w (ix4 n h s d))
          (fun d => val_main_v4 (F := Ideal) x w (ix4 n h k d)) Cert.Spec.eighth := by
  rw [val_main_v10_apply, val_main_v8_apply, ref_scale]
  unfold Cert.Spec.logit
  refine congrArg (· * Cert.Spec.eighth) (Finset.sum_congr rfl fun d _ => ?_)
  rw [lidx_v8_at, ridx_v8_at]

/-- Dropping the last axis of [2, 16, 2048, 2048] leaves [2, 16, 2048]. -/
theorem reduces_last : Cert.ReferenceIdeal.S2x16x2048x2048.Reduces [3] Cert.ReferenceIdeal.S2x16x2048 := by decide

/-- (n, h, s) with k inserted on the dropped axis is (n, h, s, k). -/
theorem lift_at (n : Fin 2) (h : Fin 16) (s k : Fin 2048) :
    reduces_last.lift (ix3 n h s) k = ix4 n h s k :=
  funext fun c => Fin.ext (by match c with | ⟨0, _⟩ => rfl | ⟨1, _⟩ => rfl | ⟨2, _⟩ => rfl | ⟨3, _⟩ => rfl)

/-- The reduction by maximum over the last axis, at (n, h, s): the fold of max, from the initial value, over that row. -/
theorem hostMax_at (Y : Cert.ReferenceIdeal.S2x16x2048x2048.Idx → EReal) (c : Cert.ReferenceIdeal.S_.Idx → EReal)
    (n : Fin 2) (h : Fin 16) (s : Fin 2048) :
    Host.reduce (FloatOps.maximumf (F := Ideal) (φ := .f32)) Y c
        Cert.ReferenceIdeal.Gen.reducesTo_S2x16x2048x2048_S2x16x2048_d3 Cert.ReferenceIdeal.Gen.h_S_ (ix3 n h s)
      = (Finset.univ : Finset (Fin 2048)).fold max (c (Shape.Idx.first Cert.ReferenceIdeal.Gen.h_S_)) (fun k => Y (ix4 n h s k)) := by
  rw [Host.reduce_eq_fold_single (FloatOps.maximumf (F := Ideal) (φ := .f32)) Y c
    Cert.ReferenceIdeal.Gen.reducesTo_S2x16x2048x2048_S2x16x2048_d3 reduces_last Cert.ReferenceIdeal.Gen.h_S_ (ix3 n h s)]
  refine congrArg (fun f => (Finset.univ : Finset (Fin 2048)).fold max (c (Shape.Idx.first Cert.ReferenceIdeal.Gen.h_S_)) f) ?_
  funext k
  exact congrArg Y (lift_at n h s k)

/-- The reference's row maximum at (n, h, s). -/
theorem ref_max (n : Fin 2) (h : Fin 16) (s : Fin 2048) :
    val_main_v13 (F := Ideal) x w (ix3 n h s)
      = Cert.Spec.rowMax (fun k => val_main_v10 (F := Ideal) x w (ix4 n h s k)) := by
  rw [val_main_v13_apply, val_main_v12_apply, val_main_cst_2_apply]
  unfold val_main_v11
  generalize val_main_v10 (F := Ideal) x w = Y
  rw [hostMax_at, val_main_cst_1_apply]
  rfl

/-- The row maximum broadcast back along the last axis is read, at (n, h, s, k), at (n, h, s). -/
theorem idx14_15_at (n : Fin 2) (h : Fin 16) (s k : Fin 2048) :
    idx_main_v14 (idx_main_v15 (ix4 n h s k)) = ix3 n h s :=
  funext fun a => Fin.ext (by match a with | ⟨0, _⟩ => rfl | ⟨1, _⟩ => rfl | ⟨2, _⟩ => rfl)

/-- The row sum broadcast back along the last axis is read, at (n, h, s, k), at (n, h, s). -/
theorem idx19_20_at (n : Fin 2) (h : Fin 16) (s k : Fin 2048) :
    idx_main_v19 (idx_main_v20 (ix4 n h s k)) = ix3 n h s :=
  funext fun a => Fin.ext (by match a with | ⟨0, _⟩ => rfl | ⟨1, _⟩ => rfl | ⟨2, _⟩ => rfl)

/-- Term k of the row sum at (n, h, s) is the entry (n, h, s, k). -/
theorem idx18_at (n : Fin 2) (h : Fin 16) (s k : Fin 2048) :
    idx_main_v18 (ix3 n h s) k = ix4 n h s k :=
  funext fun a => Fin.ext (by match a with | ⟨0, _⟩ => rfl | ⟨1, _⟩ => rfl | ⟨2, _⟩ => rfl | ⟨3, _⟩ => rfl)

/-- In the weighted average for output (n, h, s, j), term k reads the weights at (n, h, s, k) … -/
theorem lidx_v22_at (n : Fin 2) (h : Fin 16) (s : Fin 2048) (j : Fin 64) (k : Fin 2048) :
    lidx_main_v22 (ix4 n h s j) k = ix4 n h s k :=
  funext fun a => Fin.ext (by match a with | ⟨0, _⟩ => rfl | ⟨1, _⟩ => rfl | ⟨2, _⟩ => rfl | ⟨3, _⟩ => rfl)

/-- … and the values at (n, h, k, j). -/
theorem ridx_v22_at (n : Fin 2) (h : Fin 16) (s : Fin 2048) (j : Fin 64) (k : Fin 2048) :
    ridx_main_v22 (ix4 n h s j) k = ix4 n h k j :=
  funext fun a => Fin.ext (by match a with | ⟨0, _⟩ => rfl | ⟨1, _⟩ => rfl | ⟨2, _⟩ => rfl | ⟨3, _⟩ => rfl)

/-- The reference's shifted exponential at (n, h, s, k): the logit less its row's maximum, exponentiated. -/
theorem ref_exp (n : Fin 2) (h : Fin 16) (s k : Fin 2048) :
    val_main_v17 (F := Ideal) x w (ix4 n h s k)
      = Ideal.exp (val_main_v10 (F := Ideal) x w (ix4 n h s k)
          - Cert.Spec.rowMax (fun k' => val_main_v10 (F := Ideal) x w (ix4 n h s k'))) := by
  rw [val_main_v17_apply, val_main_v16_apply, val_main_v15_apply, val_main_v14_apply, idx14_15_at, ref_max]
  rfl

/-- The reference's row sum at (n, h, s): zero plus the sum of the row's shifted exponentials. -/
theorem ref_sum (n : Fin 2) (h : Fin 16) (s : Fin 2048) :
    val_main_v18 (F := Ideal) x w (ix3 n h s)
      = ∑ k : Fin 2048, Ideal.exp (val_main_v10 (F := Ideal) x w (ix4 n h s k)
          - Cert.Spec.rowMax (fun k' => val_main_v10 (F := Ideal) x w (ix4 n h s k'))) := by
  rw [val_main_v18_apply, val_main_cst_3_apply]
  refine (congrArg (· + _) Ideal.ofBits_zero_f32).trans ((zero_add _).trans ?_)
  refine Finset.sum_congr rfl fun k _ => ?_
  rw [idx18_at, ref_exp]

/-- The reference's attention weight at (n, h, s, k) is the softmax of the row of logits. -/
theorem ref_weight (n : Fin 2) (h : Fin 16) (s k : Fin 2048) :
    val_main_v21 (F := Ideal) x w (ix4 n h s k)
      = Cert.Spec.softmaxAt (fun k' => val_main_v10 (F := Ideal) x w (ix4 n h s k')) k := by
  rw [val_main_v21_apply, val_main_v20_apply, val_main_v19_apply, idx19_20_at, ref_sum, ref_exp]
  rfl

/-- The reference's output at (n, h, s, j): the softmax weights of the row averaging column j of the values. -/
theorem ref_out (n : Fin 2) (h : Fin 16) (s : Fin 2048) (j : Fin 64) :
    val_main_v22 (F := Ideal) x w (ix4 n h s j)
      = Cert.Spec.softAttend (fun k => val_main_v10 (F := Ideal) x w (ix4 n h s k))
          (fun k => val_main_v5 (F := Ideal) x w (ix4 n h k j)) := by
  rw [val_main_v22_apply]
  unfold Cert.Spec.softAttend
  refine Finset.sum_congr rfl fun k _ => ?_
  rw [lidx_v22_at, ridx_v22_at, ref_weight]

end Reference

/-! ## The two computations agree -/

/-- Attention computed pair by pair on the 32 (batch, head) pairs and laid back out by batch and head is the
    reference's batched attention of the same queries, keys and values. -/
theorem attention_eq (x : (⟨Cert.ReferenceIdeal.S2x2048x1024, .f32⟩ : BufTy).Contents (Elt Ideal))
    (w : (⟨Cert.ReferenceIdeal.S3072x1024, .f32⟩ : BufTy).Contents (Elt Ideal)) :
    (shapeCast Cert.KernelIdeal.S2x16x2048x64
      (Cert.Spec.attn
        (shapeCast Cert.KernelIdeal.S32x2048x64 (Cert.ReferenceIdeal.Read.val_main_v3 (F := Ideal) x w) shapeCasts_S2x16x2048x64_S32x2048x64)
        (shapeCast Cert.KernelIdeal.S32x2048x64 (Cert.ReferenceIdeal.Read.val_main_v4 (F := Ideal) x w) shapeCasts_S2x16x2048x64_S32x2048x64)
        (shapeCast Cert.KernelIdeal.S32x2048x64 (Cert.ReferenceIdeal.Read.val_main_v5 (F := Ideal) x w) shapeCasts_S2x16x2048x64_S32x2048x64))
      shapeCasts_S32x2048x64_S2x16x2048x64 : Cert.ReferenceIdeal.S2x16x2048x64.Idx → EReal)
    = Cert.ReferenceIdeal.Read.val_main_v22 (F := Ideal) x w := by
  funext i
  obtain ⟨n, h, s, j, rfl⟩ : ∃ n h s j, i = ix4 n h s j := ⟨_, _, _, _, eq_ix4 i⟩
  have hb : n.val * 16 + h.val < 32 := by have := n.isLt; have := h.isLt; omega
  rw [ref_out]
  refine (uncast_at _ _ n h s j hb).trans ?_
  rw [attn_at]
  unfold Cert.Spec.attnAt
  refine congrArg₂ Cert.Spec.softAttend (funext fun k => ?_) (funext fun k => ?_)
  · rw [ref_logit]
    exact congrArg₂ (fun a b => Cert.Spec.logit a b Cert.Spec.eighth)
      (funext fun d => cast_at _ _ n h s d hb) (funext fun d => cast_at _ _ n h k d hb)
  · exact cast_at _ _ n h k j hb

end Cert.Bridge

end
-- ==== Proof.BridgeOut.lean ====
import proofs.«101789_j43447889166453_1_alg».proof.Proof.Spec
import proofs.«101789_j43447889166453_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.KernelIdeal.Facts₀

variable (x : (⟨Cert.ReferenceIdeal.S2x2048x1024, .f32⟩ : BufTy).Contents (Elt Ideal))
  (w : (⟨Cert.ReferenceIdeal.S3072x1024, .f32⟩ : BufTy).Contents (Elt Ideal))
  (o : (⟨Cert.ReferenceIdeal.S1024x1024, .f32⟩ : BufTy).Contents (Elt Ideal))

/-! The last stage on both sides: the kernel multiplies the attention output, laid out as 4096 rows of 1024 features,
    by the transposed output weights; the reference lays the same array out as [2, 2048, 1024] and contracts its
    feature axis with that of the [1024, 1024] weights.  At (n, s, e) both are the sum over d of the attention output's
    feature d at position (n, s) times weight (e, d). -/

/-- The transposed output weights at (k, e) are the weights at (e, k). -/
theorem woT_apply (k : Fin 1024) (e : Fin 1024) : Cert.Spec.woT o (ix2 k e) = o (ix2 e k) := by
  unfold Cert.Spec.woT
  exact transpose_apply [1, 0] _ _ (ix2 k e) (ix2 e k) (fun b => match b with | ⟨0, _⟩ => rfl | ⟨1, _⟩ => rfl)

/-- The kernel's last product, laid out by (batch, position, feature), is the reference's result. -/
theorem output_eq :
    (shapeCast Cert.KernelIdeal.S2x2048x1024
      (Cert.Spec.outp (shapeCast Cert.KernelIdeal.S4096x1024 (Cert.ReferenceIdeal.Read.val_main_v23 (F := Ideal) x w) shapeCasts_S2x2048x16x64_S4096x1024) (Cert.Spec.woT o))
      shapeCasts_S4096x1024_S2x2048x1024 : Cert.ReferenceIdeal.S2x2048x1024.Idx → EReal)
      = Cert.ReferenceIdeal.Read.val_main_v25 (F := Ideal) x w o := by
  funext i
  obtain ⟨n, s, e, rfl⟩ : ∃ (n : Fin 2) (s : Fin 2048) (e : Fin 1024), i = ix3 n s e := ⟨i 0, i 1, i 2, eq_ix3 i⟩
  have hn := n.isLt; have hs := s.isLt; have he := e.isLt
  rw [Cert.ReferenceIdeal.Read.val_main_v25_apply]
  refine (shapeCast_apply _ _ _ (ix2 (⟨n.val * 2048 + s.val, by omega⟩ : Fin 4096) e) ?_).trans ?_
  · rw [Shape.rowMajor_val_two, Shape.rowMajor_val_three]
    rfl
  · show Cert.Spec.outAt _ _ (⟨n.val * 2048 + s.val, _⟩ : Fin 4096) (⟨e.val, _⟩ : Fin 1024) = _
    unfold Cert.Spec.outAt
    refine Finset.sum_congr rfl fun k _ => ?_
    have hk := k.isLt
    rw [Cert.ReferenceIdeal.Read.val_main_v24_apply]
    have e1 : shapeCast Cert.KernelIdeal.S4096x1024 (Cert.ReferenceIdeal.Read.val_main_v23 (F := Ideal) x w) shapeCasts_S2x2048x16x64_S4096x1024
          (ix2 (⟨n.val * 2048 + s.val, by omega⟩ : Fin 4096) k)
        = Cert.ReferenceIdeal.Read.val_main_v23 (F := Ideal) x w
          (Cert.ReferenceIdeal.Read.idx_main_v24 (Cert.ReferenceIdeal.Read.lidx_main_v25 (ix3 n s e) k)) := by
      generalize Cert.ReferenceIdeal.Read.val_main_v23 (F := Ideal) x w = T
      refine shapeCast_apply T _ _ _ ?_
      rw [Shape.rowMajor_val_four, Shape.rowMajor_val_two]
      show ((((n.val * 2048 + s.val) * 1024 + k.val) / 2097152 * 2048 + ((n.val * 2048 + s.val) * 1024 + k.val) / 1024 % 2048) * 16
          + ((n.val * 2048 + s.val) * 1024 + k.val) / 64 % 16) * 64 + ((n.val * 2048 + s.val) * 1024 + k.val) % 64
        = (n.val * 2048 + s.val) * 1024 + k.val
      omega
    have e2 : Cert.Spec.woT o (ix2 k (⟨e.val, he⟩ : Fin 1024)) = o (Cert.ReferenceIdeal.Read.ridx_main_v25 (ix3 n s e) k) := by
      rw [woT_apply]
      exact congrArg o (funext fun a => Fin.ext (by match a with | ⟨0, _⟩ => rfl | ⟨1, _⟩ => rfl))
    rw [e1, e2]

end Cert.Bridge

end
-- ==== Proof.Bridge.lean ====
import proofs.«101789_j43447889166453_1_alg».proof.Proof.Spec
import proofs.«101789_j43447889166453_1_alg».proof.Proof.Gen.ReferenceIdeal.Read
import Idealize.ShloMosaic.Lib.Pipeline.Value
import Idealize.ShloMosaic.Lib.ValueIdx
import Idealize.ShloMosaic.PureOps.Ideal.Laws
import proofs.«101789_j43447889166453_1_alg».proof.Proof.BridgeProj
import proofs.«101789_j43447889166453_1_alg».proof.Proof.BridgeAttn
import proofs.«101789_j43447889166453_1_alg».proof.Proof.BridgeOut
set_option maxRecDepth 16384

noncomputable section

namespace Cert.Bridge

open Idealize.ShloMosaic Idealize.ShloMosaic.ValueIdx
open Cert.KernelIdeal.Facts₀

variable (x : (⟨Cert.ReferenceIdeal.S2x2048x1024, .f32⟩ : BufTy).Contents (Elt Ideal))
  (w : (⟨Cert.ReferenceIdeal.S3072x1024, .f32⟩ : BufTy).Contents (Elt Ideal))
  (o : (⟨Cert.ReferenceIdeal.S1024x1024, .f32⟩ : BufTy).Contents (Elt Ideal))

/-! The three stages joined: the kernel's value of the argument arrays is the reference's. -/

/-- The attention output as 4096 rows is the reference's attention, its head and position axes exchanged, re-laid. -/
theorem attended_eq : Cert.Spec.attended x w
    = shapeCast Cert.KernelIdeal.S4096x1024 (Cert.ReferenceIdeal.Read.val_main_v23 (F := Ideal) x w) shapeCasts_S2x2048x16x64_S4096x1024 := by
  unfold Cert.Spec.attended Cert.ReferenceIdeal.Read.val_main_v23
  rw [qs_eq, ks_eq, vs_eq, attention_eq]

/-- The kernel's program and the reference compute one function of the argument arrays. -/
theorem result_eq : Cert.Spec.result x w o = Cert.ReferenceIdeal.Read.val_main_v25 (F := Ideal) x w o := by
  unfold Cert.Spec.result
  rw [attended_eq]
  exact output_eq x w o

end Cert.Bridge

end
-- ==== Proof.lean ====
/-
  Multi-head self-attention, tiled for the TensorCore in three launches, against the plain einsum reference, over the
  extended reals.

  The kernel's program multiplies the 4096 token rows by the transposed projection weights, splits the 3072 projected
  features into queries, keys and values for each of the 32 (batch, head) pairs, runs scaled-dot-product attention pair
  by pair in blocks of 1024 query rows (logits = inner products times one eighth; a row's softmax with its maximum taken
  from minus infinity; the weights average the value rows), and multiplies the re-laid attention output by the
  transposed output weights.  The reference does the same with batched contractions, its scale spelt one over the
  square root of sixty-four, which is one eighth.  Every sum is a finite sum on the extended reals, where addition and
  multiplication commute and associate, so the tiling changes nothing; no law that needs finiteness is used, and the
  precondition is never opened.

  Proof/Spec.lean states the three stages as whole-array functions and composes them with the re-layings between.
  Proof/Reg0Value.lean, Reg1Value.lean, Reg2Value.lean show each launch leaves its stage's function of what it finds;
  Proof/KValue.lean reads the buffers forward from the launch to the result; Proof/KRun.lean is the run with the result
  named.  Proof/BridgeProj.lean, BridgeAttn.lean, BridgeOut.lean show each stage equal to the reference's stage index by
  index, and Proof/Bridge.lean joins them.  The word-level program's frame and the idealized one's are the generated
  frames; the reference's is its generated run; no operation was rewritten by the idealization, so nothing is owed
  for it.
-/
import proofs.«101789_j43447889166453_1_alg».proof.Defs
import proofs.«101789_j43447889166453_1_alg».proof.Proof.Gen.Kernel
import proofs.«101789_j43447889166453_1_alg».proof.Proof.Gen.Kernel.Skeleton
import proofs.«101789_j43447889166453_1_alg».proof.Proof.Gen.Kernel.Launch
import proofs.«101789_j43447889166453_1_alg».proof.Proof.Gen.Kernel.Points
import proofs.«101789_j43447889166453_1_alg».proof.Proof.Gen.Kernel.Frame
import proofs.«101789_j43447889166453_1_alg».proof.Proof.Gen.KernelIdeal
import proofs.«101789_j43447889166453_1_alg».proof.Proof.Gen.KernelIdeal.Skeleton
import proofs.«101789_j43447889166453_1_alg».proof.Proof.Gen.KernelIdeal.Launch
import proofs.«101789_j43447889166453_1_alg».proof.Proof.Gen.KernelIdeal.Points
import proofs.«101789_j43447889166453_1_alg».proof.Proof.Gen.KernelIdeal.Frame
import proofs.«101789_j43447889166453_1_alg».proof.Proof.Gen.ReferenceIdeal
import proofs.«101789_j43447889166453_1_alg».proof.Proof.Gen.Pre_finite_inputs
import proofs.«101789_j43447889166453_1_alg».proof.Proof.Gen.ReferenceIdeal.Run
import proofs.«101789_j43447889166453_1_alg».proof.Proof.Gen.ReferenceIdeal.Read
import proofs.«101789_j43447889166453_1_alg».proof.Proof.KRun
import proofs.«101789_j43447889166453_1_alg».proof.Proof.KValue
import proofs.«101789_j43447889166453_1_alg».proof.Proof.Bridge
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the attention of those arguments: the kernel's run
    leaves the composed stages in its result buffer, the reference's run its own term, and the two are one function. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Fold.result_value m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, (hagree c).1, (hagree c).2.1, (hagree c).2.2]
    exact (Cert.Bridge.result_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
